-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts]

def fn {F : FTy → Type} [FloatOps F] (main_arg0 : FVec F S4096x8192 .f32) (main_arg1 : FVec F S4096x8192 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  main_v8
-- ==== Kernel.lean ====
abbrev S4096x8192 : Shape := ⟨2, ![4096, 8192]⟩
abbrev S4096x1 : Shape := ⟨2, ![4096, 1]⟩
abbrev S128x8192 : Shape := ⟨2, ![128, 8192]⟩
abbrev S128x1 : Shape := ⟨2, ![128, 1]⟩
abbrev S128 : Shape := ⟨1, ![128]⟩
abbrev S4096 : Shape := ⟨1, ![4096]⟩
abbrev S_ : Shape := ⟨0, ![]⟩

abbrev nBuf : Space → Nat
  | .hbm => 48
  | .vmem => 14
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S4096x1, .f32⟩
  | .hbm, ⟨3, _⟩ => ⟨S4096x1, .f32⟩
  | .hbm, ⟨4, _⟩ => ⟨S4096x1, .f32⟩
  | .hbm, ⟨5, _⟩ => ⟨S4096x1, .f32⟩
  | .hbm, ⟨6, _⟩ => ⟨S4096x1, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S4096, .f32⟩
  | .hbm, ⟨22, _⟩ => ⟨S4096, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S4096, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S128x1, .f32⟩
  | .local _ .vmem, ⟨5, _⟩ => ⟨S128x1, .f32⟩
  | .local _ .vmem, ⟨6, _⟩ => ⟨S128x1, .f32⟩
  | .local _ .vmem, ⟨7, _⟩ => ⟨S128x1, .f32⟩
  | .local _ .vmem, ⟨8, _⟩ => ⟨S128x1, .f32⟩
  | .local _ .vmem, ⟨9, _⟩ => ⟨S128x1, .f32⟩
  | .local _ .vmem, ⟨10, _⟩ => ⟨S128x1, .f32⟩
  | .local _ .vmem, ⟨11, _⟩ => ⟨S128x1, .f32⟩
  | .local _ .vmem, ⟨12, _⟩ => ⟨S128x1, .f32⟩
  | .local _ .vmem, ⟨13, _⟩ => ⟨S128x1, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S128x8192_S128x8192_0_0 : ∀ a, (![0, 0] : Fin 2 → Nat) a + S128x8192.size a ≤ S128x8192.size a
  h_S128x8192 : 0 < S128x8192.numel
  reduces_S128x8192_S128 : S128x8192.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  shapeCasts_S4096x1_S4096 : S4096x1.ShapeCasts S4096
  bcast_S_S4096 : S_.BroadcastsInDim S4096 (![] : Fin 0 → Fin S4096.rank)
  reducesTo_S4096_S_d0 : S4096.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S4096x8192.size a
  hwx0_0 : ∀ i : grid0.Coords, EltTy.bits .f32 = 32 ∨ (Rect.block (s := S4096x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S4096x8192.size a
  hwx0_1 : ∀ i : grid0.Coords, EltTy.bits .f32 = 32 ∨ (Rect.block (s := S4096x8192) S128x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S4096x1.size a
  hwx0_2 : ∀ i : grid0.Coords, EltTy.bits .f32 = 32 ∨ (Rect.block (s := S4096x1) S128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S4096x1.size a
  hwx0_3 : ∀ i : grid0.Coords, EltTy.bits .f32 = 32 ∨ (Rect.block (s := S4096x1) S128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S4096x1.size a
  hwx0_4 : ∀ i : grid0.Coords, EltTy.bits .f32 = 32 ∨ (Rect.block (s := S4096x1) S128x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S4096x1.size a
  hwx0_5 : ∀ i : grid0.Coords, EltTy.bits .f32 = 32 ∨ (Rect.block (s := S4096x1) S128x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S4096x1.size a
  hwx0_6 : ∀ i : grid0.Coords, EltTy.bits .f32 = 32 ∨ (Rect.block (s := S4096x1) S128x1.size (cc0_transform_6 i) (hinb0_6 i)).WholeWords (EltTy.packing .f32)

variable [Facts₀]

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S128x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S128x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S128x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S128x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_4) S128x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x8192 : Shape := ⟨2, ![4096, 8192]⟩
abbrev S_ : Shape := ⟨0, ![]⟩
abbrev S4096 : Shape := ⟨1, ![4096]⟩
abbrev S4096x1 : Shape := ⟨2, ![4096, 1]⟩

abbrev nBuf : Space → Nat
  | .hbm => 42
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x8192, .f32⟩
  | .hbm, ⟨23, _⟩ => ⟨S4096x8192, .f32⟩
  | .hbm, ⟨24, _⟩ => ⟨S4096x8192, .f32⟩
  | .hbm, ⟨25, _⟩ => ⟨S_, .f32⟩
  | .hbm, ⟨26, _⟩ => ⟨S4096, .f32⟩
  | .hbm, ⟨27, _⟩ => ⟨S4096x8192, .f32⟩
  | .hbm, ⟨28, _⟩ => ⟨S_, .f32⟩
  | .hbm, ⟨29, _⟩ => ⟨S4096, .f32⟩
  | .hbm, ⟨30, _⟩ => ⟨S4096x8192, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_cst_9 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  reducesTo_S4096x8192_S_d0_1 : S4096x8192.ReducesTo [0, 1] S_
  h_S_ : 0 < S_.numel
  reducesTo_S4096x8192_S4096_d1 : S4096x8192.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x8192_0_1 : S4096x1.BroadcastsInDim S4096x8192 (![0, 1] : Fin 2 → Fin S4096x8192.rank)
  reducesTo_S4096_S_d0 : S4096.ReducesTo [0] S_

variable [Facts₀]

class Facts : Prop extends Facts₀ where

variable [Facts]
-- ==== Proof.RowStats.lean ====
/-
  Row statistics over the reals. A row's centred sums in their two-pass form (subtract the row's mean, multiply, add up)
  and in their one-pass form (the sum of products less the product of the sums over the row's length) are one number;
  the squared difference of two tables added up is the sum of the squares less twice the sum of the products; and a
  finite sum of reals read in the extended reals is the sum of its terms read there. Also the two float patterns whose
  values the identities use: 8192, a row's length, and 2.
-/
import Idealize.ShloMosaic.PureOps.Ideal.Laws
import Idealize.ShloMosaic.Lib.ValueIdx
import Idealize.ShloMosaic.PureOps

noncomputable section

open scoped BigOperators
open Idealize.ShloMosaic

namespace Cert.RowStats

/-- A finite sum of reals, read in the extended reals, is the sum of the summands read there. -/
theorem coe_sum {ι : Type*} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- COVARIANCE, ONE PASS OR TWO. Over a row of `n` entries, the products of the entries less their row means
    add up to the sum of the products less the product of the two row sums over `n`:
    `∑ (Pⱼ - ΣP/n)(Qⱼ - ΣQ/n) = ∑ PⱼQⱼ - ΣP·ΣQ/n` (the cross terms each give `ΣP·ΣQ/n`, the constant term gives it back once). -/
theorem sum_centred_mul {ι : Type*} [Fintype ι] (P Q : ι → ℝ) (n : ℝ) (hn : (Fintype.card ι : ℝ) = n) (h0 : n ≠ 0) :
    ∑ j, (P j - (∑ k, P k) * (1 / n)) * (Q j - (∑ k, Q k) * (1 / n))
      = ∑ j, P j * Q j - (∑ k, P k) * (∑ k, Q k) * (1 / n) := by
  have e : ∀ j, (P j - (∑ k, P k) * (1 / n)) * (Q j - (∑ k, Q k) * (1 / n))
      = P j * Q j - P j * ((∑ k, Q k) * (1 / n)) - (∑ k, P k) * (1 / n) * Q j
        + (∑ k, P k) * (1 / n) * ((∑ k, Q k) * (1 / n)) := fun j => by ring
  simp only [e, Finset.sum_add_distrib, Finset.sum_sub_distrib, ← Finset.sum_mul, ← Finset.mul_sum, Finset.sum_const,
    Finset.card_univ, nsmul_eq_mul, hn]
  field_simp
  ring

/-- THE SQUARED ERROR, ENTRY BY ENTRY OR FROM THE MOMENTS: `∑ᵢ∑ₖ (P - Q)² = ∑ᵢ∑ₖ P² - 2 ∑ᵢ∑ₖ PQ + ∑ᵢ∑ₖ Q²`. -/
theorem sum_sq_sub {ι κ : Type*} [Fintype ι] [Fintype κ] (P Q : ι → κ → ℝ) :
    ∑ i, ∑ k, (P i k - Q i k) * (P i k - Q i k)
      = ∑ i, ∑ k, P i k * P i k - 2 * ∑ i, ∑ k, P i k * Q i k + ∑ i, ∑ k, Q i k * Q i k := by
  simp only [← Finset.sum_sub_distrib, ← Finset.sum_add_distrib, Finset.mul_sum]
  exact Finset.sum_congr rfl fun i _ => Finset.sum_congr rfl fun k _ => by ring

/-- The pattern of `8192.0`, the divisor of a row's mean, denotes the real `8192`. -/
theorem ofBits_8192 : Ideal.ofBits .f32 0x46000000#32 = ((8192 : ℝ) : EReal) := by
  simp [Ideal.ofBits, Ideal.ieee, -EReal.coe_mul]; norm_num

/-- The pattern of `2.0`, the factor of the cross term of the squared error, denotes the real `2`. -/
theorem ofBits_two : Ideal.ofBits .f32 0x40000000#32 = ((2 : ℝ) : EReal) := by
  simp [Ideal.ofBits, Ideal.ieee, -EReal.coe_mul]; norm_num

/-! ## The stretch the two programs share -/

abbrev Rows : Shape := ⟨1, ![4096]⟩
abbrev Scalar0 : Shape := ⟨0, ![]⟩

/-- From the three centred row sums `a`, `b` (each table's squares) and `n` (the products), and the squared error
    `sse`: the mean squared error `sse / 2^25` over the mean over the 4096 rows of `|n / √(a·b)|`. Both programs end with
    exactly these operations; the certificate compares what they feed them and never opens them. -/
def lossRatio (hr : Rows.ReducesTo [0] Scalar0) (h0 : 0 < Scalar0.numel)
    (a b n : FVec Ideal Rows .f32) (sse : FVec Ideal Scalar0 .f32) : FVec Ideal Scalar0 .f32 :=
  Host.divf (Host.divf sse (constant Scalar0 .f32 0x4C000000#32))
    (Host.divf (Host.reduceAdd (Host.absf (Host.divf n (Host.sqrt (mulf a b)))) (constant Scalar0 .f32 0x00000000#32) hr h0)
      (constant Scalar0 .f32 0x45800000#32))

end Cert.RowStats

end
-- ==== Proof.KernelValue.lean ====
/-
  What the idealized kernel's run leaves in its result buffer, as one function of the two argument tables.

  The call runs over a grid of 32 points. Point `t` takes rows `128 t … 128 t + 127` of both 4096 × 8192 tables whole and
  stores five 128 × 1 columns: the sum along each row of the first block, of the second, of the first's squares, of the
  second's squares, and of the two blocks' products. A block's entry `(r, k)` is the table's entry `(128 t + r, k)`, so what
  point `t` writes back through an output window is rows `128 t …` of ONE whole-array function of the tables — a table's
  (or a product table's) row sums as a 4096 × 1 column — and since row `r` lies in block `r / 128` the 32 blocks tile each
  column: after the call each of the five columns holds that function. The lines after the call read only those five
  columns; their composition is stated once, over any contents of the buffers, and then fed the five columns.
-/
import proofs.«136035_j5050881540163_1_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic
import Idealize.ShloMosaic.PureOps.Ideal.Laws
import proofs.«136035_j5050881540163_1_alg».proof.Proof.RowStats

noncomputable section

open scoped BigOperators
open Idealize.ShloMosaic Idealize.ShloMosaic.TcCoe Idealize.SL.Sem Idealize.ShloMosaic.ValueIdx
open Idealize.ShloMosaic.Pipeline (Dat)

namespace Cert.KernelIdeal.RowSums

open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- Each row of a table added up along the row, as a one-column table. -/
def sumRows (a : Vec Ideal S4096x8192 .f32) : Vec Ideal S4096x1 .f32 := fun i => ∑ k : Fin 8192, a (ix2 (i 0) k)

/-- A block's lane sum, kept as a column: entry `y` is the sum of the block's row `y 0`. -/
theorem laneSum_apply (x : FVec Ideal S128x8192 .f32) (y : S128x1.Idx) :
    shapeCast S128x1 (multiReduction (F := Ideal) .add [1] S128 x 0x00000000#32 reduces_S128x8192_S128 (.inl rfl) rfl) shapeCasts_S128_S128x1 y
      = ∑ k : Fin 8192, x (ix2 (y 0) k) := by
  rw [shapeCast_apply _ shapeCasts_S128_S128x1 y (ix1 (y 0)) ?_]
  · refine (Ideal.multiReduction_add_single x 0x00000000#32 reduces_S128x8192_S128 (.inl rfl) rfl (ix1 (y 0))).trans ?_
    refine Finset.sum_congr rfl fun k _ => congrArg x ?_
    funext a; apply Fin.ext
    match a with
    | ⟨0, _⟩ => rfl
    | ⟨1, _⟩ => rfl
  · rw [Shape.rowMajor_val_one, Shape.rowMajor_val_two]
    show (y 0).val = (y 0).val * 1 + (y 1).val
    have h1 : (y 1).val < 1 := (y 1).isLt
    omega

/-- The five stored columns of a pair of blocks: the row sums of each block, of each block's squares, and of the
    two blocks' products. -/
theorem pay1_apply (x : Vec Ideal S128x8192 .f32) (y : S128x1.Idx) : k0_pay1 x y = ∑ k : Fin 8192, x (ix2 (y 0) k) :=
  laneSum_apply x y
theorem pay2_apply (x : Vec Ideal S128x8192 .f32) (y : S128x1.Idx) : k0_pay2 x y = ∑ k : Fin 8192, x (ix2 (y 0) k) :=
  laneSum_apply x y
theorem pay3_apply (x : Vec Ideal S128x8192 .f32) (y : S128x1.Idx) :
    k0_pay3 x y = ∑ k : Fin 8192, x (ix2 (y 0) k) * x (ix2 (y 0) k) :=
  laneSum_apply (mulf (F := Ideal) (s := S128x8192) (φ := .f32) x x) y
theorem pay4_apply (x : Vec Ideal S128x8192 .f32) (y : S128x1.Idx) :
    k0_pay4 x y = ∑ k : Fin 8192, x (ix2 (y 0) k) * x (ix2 (y 0) k) :=
  laneSum_apply (mulf (F := Ideal) (s := S128x8192) (φ := .f32) x x) y
theorem pay5_apply (x0 x1 : Vec Ideal S128x8192 .f32) (y : S128x1.Idx) :
    k0_pay5 x0 x1 y = ∑ k : Fin 8192, x0 (ix2 (y 0) k) * x1 (ix2 (y 0) k) :=
  laneSum_apply (mulf (F := Ideal) (s := S128x8192) (φ := .f32) x0 x1) y

/-- The printed index maps over the grid: point `t` takes row block `t` of every window, and the one column block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Entry `(r, k)` of the first input's block at point `t` is entry `(128 t + r, k)` of the first argument. -/
theorem iblk0_apply (c : Dev nD) (t : Fin cfg0.N) (r : Fin 128) (k : Fin 8192) (R : Fin 4096) (hR : R.val = t.val * 128 + r.val) :
    (iblk m c 0 t : Vec Ideal S128x8192 .f32) (ix2 r k) = (V m c main_arg0 : Vec Ideal S4096x8192 .f32) (ix2 R k) := by
  obtain ⟨e0, e1, -⟩ := idx_facts t
  unfold iblk
  rw [View.read_apply]
  show V m c main_arg0 _ = V m c main_arg0 _
  congr 1
  funext a
  apply Fin.ext
  match a with
  | ⟨0, _⟩ => show win0_0.index t 0 * 128 + 1 * r.val = R.val; rw [e0, hR]; omega
  | ⟨1, _⟩ => show win0_0.index t 1 * 8192 + 1 * k.val = k.val; rw [e1]; omega

/-- Entry `(r, k)` of the second input's block at point `t` is entry `(128 t + r, k)` of the second argument. -/
theorem iblk1_apply (c : Dev nD) (t : Fin cfg0.N) (r : Fin 128) (k : Fin 8192) (R : Fin 4096) (hR : R.val = t.val * 128 + r.val) :
    (iblk m c 1 t : Vec Ideal S128x8192 .f32) (ix2 r k) = (V m c main_arg1 : Vec Ideal S4096x8192 .f32) (ix2 R k) := by
  obtain ⟨-, -, e0, e1, -⟩ := idx_facts t
  unfold iblk
  rw [View.read_apply]
  show V m c main_arg1 _ = V m c main_arg1 _
  congr 1
  funext a
  apply Fin.ext
  match a with
  | ⟨0, _⟩ => show win0_1.index t 0 * 128 + 1 * r.val = R.val; rw [e0, hR]; omega
  | ⟨1, _⟩ => show win0_1.index t 1 * 8192 + 1 * k.val = k.val; rw [e1]; omega

/-- WHAT POINT `t` WRITES BACK through the first output window: rows `128 t … 128 t + 127` of the first argument's row sums. -/
theorem flushed2_eq (c : Dev nD) (t : Fin cfg0.N) :
    (dats m 0 c).flushed 2 t = ((cfg0.win 2).blk t).view.read (Elt Ideal) (sumRows (V m c main_arg0)) := by
  show (cfg0.win 2).cut (grid0.coords t) ((dats m 0 c).after 2 t) = _
  rw [after0_2]
  unfold out0_2
  rw [View.canon_unit_zero hz]
  simp only [View.ld_unit_zero (S := S128x8192) hz]
  obtain ⟨-, -, -, -, e4, e5, -⟩ := idx_facts t
  funext y
  show k0_pay1 (iblk m c 0 t) y = sumRows (V m c main_arg0) (((cfg0.win 2).blk t).view.emb y)
  refine (pay1_apply _ y).trans ?_
  unfold sumRows
  refine Finset.sum_congr rfl fun k _ => ?_
  refine iblk0_apply m c t (y 0) k _ ?_
  show win0_2.index t 0 * 128 + 1 * (y 0).val = t.val * 128 + (y 0).val
  rw [e4]; omega

/-- WHAT POINT `t` WRITES BACK through the second output window: rows `128 t … 128 t + 127` of the second argument's row sums. -/
theorem flushed3_eq (c : Dev nD) (t : Fin cfg0.N) :
    (dats m 0 c).flushed 3 t = ((cfg0.win 3).blk t).view.read (Elt Ideal) (sumRows (V m c main_arg1)) := by
  show (cfg0.win 3).cut (grid0.coords t) ((dats m 0 c).after 3 t) = _
  rw [after0_3]
  unfold out0_3
  rw [View.canon_unit_zero hz]
  simp only [View.ld_unit_zero (S := S128x8192) hz]
  obtain ⟨-, -, -, -, -, -, e4, e5, -⟩ := idx_facts t
  funext y
  show k0_pay2 (iblk m c 1 t) y = sumRows (V m c main_arg1) (((cfg0.win 3).blk t).view.emb y)
  refine (pay2_apply _ y).trans ?_
  unfold sumRows
  refine Finset.sum_congr rfl fun k _ => ?_
  refine iblk1_apply m c t (y 0) k _ ?_
  show win0_3.index t 0 * 128 + 1 * (y 0).val = t.val * 128 + (y 0).val
  rw [e4]; omega

/-- WHAT POINT `t` WRITES BACK through the third output window: those rows of the row sums of the first argument's squares. -/
theorem flushed4_eq (c : Dev nD) (t : Fin cfg0.N) :
    (dats m 0 c).flushed 4 t = ((cfg0.win 4).blk t).view.read (Elt Ideal)
      (sumRows (mulf (F := Ideal) (s := S4096x8192) (φ := .f32) (V m c main_arg0) (V m c main_arg0))) := by
  show (cfg0.win 4).cut (grid0.coords t) ((dats m 0 c).after 4 t) = _
  rw [after0_4]
  unfold out0_4
  rw [View.canon_unit_zero hz]
  simp only [View.ld_unit_zero (S := S128x8192) hz]
  obtain ⟨-, -, -, -, -, -, -, -, e4, e5, -⟩ := idx_facts t
  funext y
  show k0_pay3 (iblk m c 0 t) y
    = sumRows (mulf (F := Ideal) (s := S4096x8192) (φ := .f32) (V m c main_arg0) (V m c main_arg0)) (((cfg0.win 4).blk t).view.emb y)
  refine (pay3_apply _ y).trans ?_
  unfold sumRows
  refine Finset.sum_congr rfl fun k _ => ?_
  have h := iblk0_apply m c t (y 0) k ((((cfg0.win 4).blk t).view.emb y) 0)
    (show win0_4.index t 0 * 128 + 1 * (y 0).val = t.val * 128 + (y 0).val by rw [e4]; omega)
  exact congrArg (fun v => v * v) h

/-- WHAT POINT `t` WRITES BACK through the fourth output window: those rows of the row sums of the second argument's squares. -/
theorem flushed5_eq (c : Dev nD) (t : Fin cfg0.N) :
    (dats m 0 c).flushed 5 t = ((cfg0.win 5).blk t).view.read (Elt Ideal)
      (sumRows (mulf (F := Ideal) (s := S4096x8192) (φ := .f32) (V m c main_arg1) (V m c main_arg1))) := by
  show (cfg0.win 5).cut (grid0.coords t) ((dats m 0 c).after 5 t) = _
  rw [after0_5]
  unfold out0_5
  rw [View.canon_unit_zero hz]
  simp only [View.ld_unit_zero (S := S128x8192) hz]
  obtain ⟨-, -, -, -, -, -, -, -, -, -, e4, e5, -⟩ := idx_facts t
  funext y
  show k0_pay4 (iblk m c 1 t) y
    = sumRows (mulf (F := Ideal) (s := S4096x8192) (φ := .f32) (V m c main_arg1) (V m c main_arg1)) (((cfg0.win 5).blk t).view.emb y)
  refine (pay4_apply _ y).trans ?_
  unfold sumRows
  refine Finset.sum_congr rfl fun k _ => ?_
  have h := iblk1_apply m c t (y 0) k ((((cfg0.win 5).blk t).view.emb y) 0)
    (show win0_5.index t 0 * 128 + 1 * (y 0).val = t.val * 128 + (y 0).val by rw [e4]; omega)
  exact congrArg (fun v => v * v) h

/-- WHAT POINT `t` WRITES BACK through the fifth output window: those rows of the row sums of the two arguments' products. -/
theorem flushed6_eq (c : Dev nD) (t : Fin cfg0.N) :
    (dats m 0 c).flushed 6 t = ((cfg0.win 6).blk t).view.read (Elt Ideal)
      (sumRows (mulf (F := Ideal) (s := S4096x8192) (φ := .f32) (V m c main_arg0) (V m c main_arg1))) := by
  show (cfg0.win 6).cut (grid0.coords t) ((dats m 0 c).after 6 t) = _
  rw [after0_6]
  unfold out0_6
  rw [View.canon_unit_zero hz]
  simp only [View.ld_unit_zero (S := S128x8192) hz]
  obtain ⟨-, -, -, -, -, -, -, -, -, -, -, -, e4, e5⟩ := idx_facts t
  funext y
  show k0_pay5 (iblk m c 0 t) (iblk m c 1 t) y
    = sumRows (mulf (F := Ideal) (s := S4096x8192) (φ := .f32) (V m c main_arg0) (V m c main_arg1)) (((cfg0.win 6).blk t).view.emb y)
  refine (pay5_apply _ _ y).trans ?_
  unfold sumRows
  refine Finset.sum_congr rfl fun k _ => ?_
  have hR : ((((cfg0.win 6).blk t).view.emb y) 0).val = t.val * 128 + (y 0).val :=
    (show win0_6.index t 0 * 128 + 1 * (y 0).val = t.val * 128 + (y 0).val by rw [e4]; omega)
  have h0 := iblk0_apply m c t (y 0) k ((((cfg0.win 6).blk t).view.emb y) 0) hR
  have h1 := iblk1_apply m c t (y 0) k ((((cfg0.win 6).blk t).view.emb y) 0) hR
  exact congrArg₂ (fun u v => u * v) h0 h1

/-- An index of the the first argument's row sums column is in point `t`'s block iff its row is one of the block's 128 rows. -/
theorem mem_blk2 (t : Fin cfg0.N) (i : S4096x1.Idx) :
    i ∈ ((cfg0.win 2).blk t).view.set ↔ ∀ a : Fin 2, win0_2.index t a * S128x1.size a ≤ (i a).val
      ∧ (i a).val < win0_2.index t a * S128x1.size a + S128x1.size a := by
  show i ∈ ((View.whole main_v0_0).slice (win0_2.rect t)).set ↔ _
  rw [View.set_slice_whole, Rect.mem_set_unit]
  exact Iff.rfl

/-- Row `r` of that column is written back by point `r / 128`: the 32 blocks tile the column. -/
theorem cover2 (i : S4096x1.Idx) : ∃ t : Fin cfg0.N, (cfg0.win 2).flush t = true ∧ i ∈ ((cfg0.win 2).blk t).view.set := by
  have hi0 : (i 0).val < 4096 := (i 0).isLt
  have hi1 : (i 1).val < 1 := (i 1).isLt
  have hN : cfg0.N = 32 := N_0
  have ht : (i 0).val / 128 < cfg0.N := by rw [hN]; omega
  refine ⟨⟨(i 0).val / 128, ht⟩, flush0_2 _, ?_⟩
  rw [mem_blk2]
  obtain ⟨-, -, -, -, e4, e5, -⟩ := idx_facts ⟨(i 0).val / 128, ht⟩
  intro a
  match a with
  | ⟨0, _⟩ =>
    show win0_2.index ⟨(i 0).val / 128, ht⟩ 0 * 128 ≤ (i 0).val ∧ (i 0).val < win0_2.index ⟨(i 0).val / 128, ht⟩ 0 * 128 + 128
    rw [e4]; show (i 0).val / 128 * 128 ≤ (i 0).val ∧ (i 0).val < (i 0).val / 128 * 128 + 128; omega
  | ⟨1, _⟩ =>
    show win0_2.index ⟨(i 0).val / 128, ht⟩ 1 * 1 ≤ (i 1).val ∧ (i 1).val < win0_2.index ⟨(i 0).val / 128, ht⟩ 1 * 1 + 1
    rw [e5]; omega

/-- So after the run the column holds the first argument's row sums. -/
theorem final2 (c : Dev nD) : (dats m 0 c).arrAt 2 cfg0.N = sumRows (V m c main_arg0) :=
  (dats m 0 c).arrAt_eq_of_cover 2 _ (fun t _ => flushed2_eq m c t) cover2

/-- An index of the the second argument's row sums column is in point `t`'s block iff its row is one of the block's 128 rows. -/
theorem mem_blk3 (t : Fin cfg0.N) (i : S4096x1.Idx) :
    i ∈ ((cfg0.win 3).blk t).view.set ↔ ∀ a : Fin 2, win0_3.index t a * S128x1.size a ≤ (i a).val
      ∧ (i a).val < win0_3.index t a * S128x1.size a + S128x1.size a := by
  show i ∈ ((View.whole main_v0_1).slice (win0_3.rect t)).set ↔ _
  rw [View.set_slice_whole, Rect.mem_set_unit]
  exact Iff.rfl

/-- Row `r` of that column is written back by point `r / 128`: the 32 blocks tile the column. -/
theorem cover3 (i : S4096x1.Idx) : ∃ t : Fin cfg0.N, (cfg0.win 3).flush t = true ∧ i ∈ ((cfg0.win 3).blk t).view.set := by
  have hi0 : (i 0).val < 4096 := (i 0).isLt
  have hi1 : (i 1).val < 1 := (i 1).isLt
  have hN : cfg0.N = 32 := N_0
  have ht : (i 0).val / 128 < cfg0.N := by rw [hN]; omega
  refine ⟨⟨(i 0).val / 128, ht⟩, flush0_3 _, ?_⟩
  rw [mem_blk3]
  obtain ⟨-, -, -, -, -, -, e4, e5, -⟩ := idx_facts ⟨(i 0).val / 128, ht⟩
  intro a
  match a with
  | ⟨0, _⟩ =>
    show win0_3.index ⟨(i 0).val / 128, ht⟩ 0 * 128 ≤ (i 0).val ∧ (i 0).val < win0_3.index ⟨(i 0).val / 128, ht⟩ 0 * 128 + 128
    rw [e4]; show (i 0).val / 128 * 128 ≤ (i 0).val ∧ (i 0).val < (i 0).val / 128 * 128 + 128; omega
  | ⟨1, _⟩ =>
    show win0_3.index ⟨(i 0).val / 128, ht⟩ 1 * 1 ≤ (i 1).val ∧ (i 1).val < win0_3.index ⟨(i 0).val / 128, ht⟩ 1 * 1 + 1
    rw [e5]; omega

/-- So after the run the column holds the second argument's row sums. -/
theorem final3 (c : Dev nD) : (dats m 0 c).arrAt 3 cfg0.N = sumRows (V m c main_arg1) :=
  (dats m 0 c).arrAt_eq_of_cover 3 _ (fun t _ => flushed3_eq m c t) cover3

/-- An index of the the row sums of the first argument's squares column is in point `t`'s block iff its row is one of the block's 128 rows. -/
theorem mem_blk4 (t : Fin cfg0.N) (i : S4096x1.Idx) :
    i ∈ ((cfg0.win 4).blk t).view.set ↔ ∀ a : Fin 2, win0_4.index t a * S128x1.size a ≤ (i a).val
      ∧ (i a).val < win0_4.index t a * S128x1.size a + S128x1.size a := by
  show i ∈ ((View.whole main_v0_2).slice (win0_4.rect t)).set ↔ _
  rw [View.set_slice_whole, Rect.mem_set_unit]
  exact Iff.rfl

/-- Row `r` of that column is written back by point `r / 128`: the 32 blocks tile the column. -/
theorem cover4 (i : S4096x1.Idx) : ∃ t : Fin cfg0.N, (cfg0.win 4).flush t = true ∧ i ∈ ((cfg0.win 4).blk t).view.set := by
  have hi0 : (i 0).val < 4096 := (i 0).isLt
  have hi1 : (i 1).val < 1 := (i 1).isLt
  have hN : cfg0.N = 32 := N_0
  have ht : (i 0).val / 128 < cfg0.N := by rw [hN]; omega
  refine ⟨⟨(i 0).val / 128, ht⟩, flush0_4 _, ?_⟩
  rw [mem_blk4]
  obtain ⟨-, -, -, -, -, -, -, -, e4, e5, -⟩ := idx_facts ⟨(i 0).val / 128, ht⟩
  intro a
  match a with
  | ⟨0, _⟩ =>
    show win0_4.index ⟨(i 0).val / 128, ht⟩ 0 * 128 ≤ (i 0).val ∧ (i 0).val < win0_4.index ⟨(i 0).val / 128, ht⟩ 0 * 128 + 128
    rw [e4]; show (i 0).val / 128 * 128 ≤ (i 0).val ∧ (i 0).val < (i 0).val / 128 * 128 + 128; omega
  | ⟨1, _⟩ =>
    show win0_4.index ⟨(i 0).val / 128, ht⟩ 1 * 1 ≤ (i 1).val ∧ (i 1).val < win0_4.index ⟨(i 0).val / 128, ht⟩ 1 * 1 + 1
    rw [e5]; omega

/-- So after the run the column holds the row sums of the first argument's squares. -/
theorem final4 (c : Dev nD) : (dats m 0 c).arrAt 4 cfg0.N = sumRows (mulf (F := Ideal) (s := S4096x8192) (φ := .f32) (V m c main_arg0) (V m c main_arg0)) :=
  (dats m 0 c).arrAt_eq_of_cover 4 _ (fun t _ => flushed4_eq m c t) cover4

/-- An index of the the row sums of the second argument's squares column is in point `t`'s block iff its row is one of the block's 128 rows. -/
theorem mem_blk5 (t : Fin cfg0.N) (i : S4096x1.Idx) :
    i ∈ ((cfg0.win 5).blk t).view.set ↔ ∀ a : Fin 2, win0_5.index t a * S128x1.size a ≤ (i a).val
      ∧ (i a).val < win0_5.index t a * S128x1.size a + S128x1.size a := by
  show i ∈ ((View.whole main_v0_3).slice (win0_5.rect t)).set ↔ _
  rw [View.set_slice_whole, Rect.mem_set_unit]
  exact Iff.rfl

/-- Row `r` of that column is written back by point `r / 128`: the 32 blocks tile the column. -/
theorem cover5 (i : S4096x1.Idx) : ∃ t : Fin cfg0.N, (cfg0.win 5).flush t = true ∧ i ∈ ((cfg0.win 5).blk t).view.set := by
  have hi0 : (i 0).val < 4096 := (i 0).isLt
  have hi1 : (i 1).val < 1 := (i 1).isLt
  have hN : cfg0.N = 32 := N_0
  have ht : (i 0).val / 128 < cfg0.N := by rw [hN]; omega
  refine ⟨⟨(i 0).val / 128, ht⟩, flush0_5 _, ?_⟩
  rw [mem_blk5]
  obtain ⟨-, -, -, -, -, -, -, -, -, -, e4, e5, -⟩ := idx_facts ⟨(i 0).val / 128, ht⟩
  intro a
  match a with
  | ⟨0, _⟩ =>
    show win0_5.index ⟨(i 0).val / 128, ht⟩ 0 * 128 ≤ (i 0).val ∧ (i 0).val < win0_5.index ⟨(i 0).val / 128, ht⟩ 0 * 128 + 128
    rw [e4]; show (i 0).val / 128 * 128 ≤ (i 0).val ∧ (i 0).val < (i 0).val / 128 * 128 + 128; omega
  | ⟨1, _⟩ =>
    show win0_5.index ⟨(i 0).val / 128, ht⟩ 1 * 1 ≤ (i 1).val ∧ (i 1).val < win0_5.index ⟨(i 0).val / 128, ht⟩ 1 * 1 + 1
    rw [e5]; omega

/-- So after the run the column holds the row sums of the second argument's squares. -/
theorem final5 (c : Dev nD) : (dats m 0 c).arrAt 5 cfg0.N = sumRows (mulf (F := Ideal) (s := S4096x8192) (φ := .f32) (V m c main_arg1) (V m c main_arg1)) :=
  (dats m 0 c).arrAt_eq_of_cover 5 _ (fun t _ => flushed5_eq m c t) cover5

/-- An index of the the row sums of the two arguments' products column is in point `t`'s block iff its row is one of the block's 128 rows. -/
theorem mem_blk6 (t : Fin cfg0.N) (i : S4096x1.Idx) :
    i ∈ ((cfg0.win 6).blk t).view.set ↔ ∀ a : Fin 2, win0_6.index t a * S128x1.size a ≤ (i a).val
      ∧ (i a).val < win0_6.index t a * S128x1.size a + S128x1.size a := by
  show i ∈ ((View.whole main_v0_4).slice (win0_6.rect t)).set ↔ _
  rw [View.set_slice_whole, Rect.mem_set_unit]
  exact Iff.rfl

/-- Row `r` of that column is written back by point `r / 128`: the 32 blocks tile the column. -/
theorem cover6 (i : S4096x1.Idx) : ∃ t : Fin cfg0.N, (cfg0.win 6).flush t = true ∧ i ∈ ((cfg0.win 6).blk t).view.set := by
  have hi0 : (i 0).val < 4096 := (i 0).isLt
  have hi1 : (i 1).val < 1 := (i 1).isLt
  have hN : cfg0.N = 32 := N_0
  have ht : (i 0).val / 128 < cfg0.N := by rw [hN]; omega
  refine ⟨⟨(i 0).val / 128, ht⟩, flush0_6 _, ?_⟩
  rw [mem_blk6]
  obtain ⟨-, -, -, -, -, -, -, -, -, -, -, -, e4, e5⟩ := idx_facts ⟨(i 0).val / 128, ht⟩
  intro a
  match a with
  | ⟨0, _⟩ =>
    show win0_6.index ⟨(i 0).val / 128, ht⟩ 0 * 128 ≤ (i 0).val ∧ (i 0).val < win0_6.index ⟨(i 0).val / 128, ht⟩ 0 * 128 + 128
    rw [e4]; show (i 0).val / 128 * 128 ≤ (i 0).val ∧ (i 0).val < (i 0).val / 128 * 128 + 128; omega
  | ⟨1, _⟩ =>
    show win0_6.index ⟨(i 0).val / 128, ht⟩ 1 * 1 ≤ (i 1).val ∧ (i 1).val < win0_6.index ⟨(i 0).val / 128, ht⟩ 1 * 1 + 1
    rw [e5]; omega

/-- So after the run the column holds the row sums of the two arguments' products. -/
theorem final6 (c : Dev nD) : (dats m 0 c).arrAt 6 cfg0.N = sumRows (mulf (F := Ideal) (s := S4096x8192) (φ := .f32) (V m c main_arg0) (V m c main_arg1)) :=
  (dats m 0 c).arrAt_eq_of_cover 6 _ (fun t _ => flushed6_eq m c t) cover6

/-! ## The lines after the call -/

/-- A one-column table read as a row of 4096 entries. -/
def colAsRow (x : Vec Ideal S4096x1 .f32) : FVec Ideal S4096 .f32 := shapeCast S4096 x shapeCasts_S4096x1_S4096

/-- The row length `8192.0` at every row. -/
def rowLen : FVec Ideal S4096 .f32 := broadcastInDim S4096 ![] bcast_S_S4096 (constant (F := Ideal) S_ .f32 0x46000000#32)

/-- A centred row sum in its one-pass form: the row sums `xy` of the products less the product of the row sums `x`, `y`
    over the row length. -/
def oneDev (x y xy : Vec Ideal S4096x1 .f32) : FVec Ideal S4096 .f32 :=
  subf (colAsRow xy) (Host.divf (mulf (colAsRow x) (colAsRow y)) rowLen)

/-- The squared error from the three second moments: `Σ sp2 - 2 Σ spt + Σ st2`. -/
def sseOf (sp2 st2 spt : Vec Ideal S4096x1 .f32) : FVec Ideal S_ .f32 :=
  addf (subf (Host.reduceAdd (colAsRow sp2) (constant (F := Ideal) S_ .f32 0x00000000#32) reducesTo_S4096_S_d0 h_S_)
      (mulf (constant (F := Ideal) S_ .f32 0x40000000#32)
        (Host.reduceAdd (colAsRow spt) (constant (F := Ideal) S_ .f32 0x00000000#32) reducesTo_S4096_S_d0 h_S_)))
    (Host.reduceAdd (colAsRow st2) (constant (F := Ideal) S_ .f32 0x00000000#32) reducesTo_S4096_S_d0 h_S_)

/-- The lines after the call as one function of the call's five columns: the shared last stretch fed the three one-pass
    centred sums and the squared error from the moments. -/
def tailOf (sp st sp2 st2 spt : Vec Ideal S4096x1 .f32) : FVec Ideal S_ .f32 :=
  Cert.RowStats.lossRatio reducesTo_S4096_S_d0 h_S_ (oneDev sp sp sp2) (oneDev st st st2) (oneDev sp st spt) (sseOf sp2 st2 spt)

set_option maxRecDepth 8192 in
set_option maxHeartbeats 2000000 in
/-- From ANY contents of the device's buffers, the lines after the call leave `tailOf` of the five columns in the result. -/
theorem tail_eq (W : Valuation τ sig (Elt Ideal)) :
    StableHlo.after hostOps1 W (Proc.devRef .tc main_v31)
      = tailOf (W (Proc.devRef .tc main_v0_0)) (W (Proc.devRef .tc main_v0_1)) (W (Proc.devRef .tc main_v0_2))
          (W (Proc.devRef .tc main_v0_3)) (W (Proc.devRef .tc main_v0_4)) := by
  after_results
  rfl

/-- The program's result after the run, on core `c`, from the two arguments as the call finds them. -/
def result (c : Dev nD) : FVec Ideal S_ .f32 :=
  tailOf (sumRows (V m c main_arg0)) (sumRows (V m c main_arg1))
    (sumRows (mulf (F := Ideal) (s := S4096x8192) (φ := .f32) (V m c main_arg0) (V m c main_arg0)))
    (sumRows (mulf (F := Ideal) (s := S4096x8192) (φ := .f32) (V m c main_arg1) (V m c main_arg1)))
    (sumRows (mulf (F := Ideal) (s := S4096x8192) (φ := .f32) (V m c main_arg0) (V m c main_arg1)))

theorem tailOf_congr {a a' b b' d d' e e' f f' : Vec Ideal S4096x1 .f32} (ha : a = a') (hb : b = b') (hd : d = d')
    (he : e = e') (hf : f = f') : tailOf a b d e f = tailOf a' b' d' e' f' := by
  subst ha hb hd he hf; rfl

/-- What the frame run's post says the result buffer holds is `result`: the lines after the call read the five columns the
    call left, each its whole-array function of the arguments. -/
theorem result_eq (c : Dev nD) :
    Pipeline.afterTail₀ cfgs (dats m) 0 (V0 m) [hostOps1] c main_v31 = result m c := by
  unfold Pipeline.afterTail₀
  show StableHlo.after hostOps1 _ (Proc.devRef .tc main_v31) = _
  refine (tail_eq _).trans ?_
  exact tailOf_congr
    ((Pipeline.withArrays_arr spec0 launch0.win.arr_inj c _ _ 2).trans (final2 m c))
    ((Pipeline.withArrays_arr spec0 launch0.win.arr_inj c _ _ 3).trans (final3 m c))
    ((Pipeline.withArrays_arr spec0 launch0.win.arr_inj c _ _ 4).trans (final4 m c))
    ((Pipeline.withArrays_arr spec0 launch0.win.arr_inj c _ _ 5).trans (final5 m c))
    ((Pipeline.withArrays_arr spec0 launch0.win.arr_inj c _ _ 6).trans (final6 m c))

/-- THE RUN, READ: every weakly fair execution ends with the result buffer at `result` and the arguments unchanged. -/
theorem run : θ_run defs (onTc (τ := τ) (main (F := Ideal))) ⟨m, fun _ => 0, ρ⟩ fun r => ∀ c : Dev nD,
      r.2.mem ((c.tc : Thread nD τ).loc main_v31) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v31 (Pipeline.mem_restRefs_of main_v31 rfl (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.RowSums

end
-- ==== Proof.KernelMoments.lean ====
/-
  The kernel's side at real entries. The call leaves five columns — each table's row sums, the row sums of each table's
  squares, and of the two tables' products — and the lines after it form the centred sums in one pass,
  `Σxy - Σx·Σy/8192`, and the squared error from the moments. Here each of those is read, at a row, as the extended real
  of one real expression of the arguments' real entries.
-/
import proofs.«136035_j5050881540163_1_alg».proof.Proof.KernelValue

noncomputable section

open scoped BigOperators
open Idealize.ShloMosaic Idealize.ShloMosaic.ValueIdx

namespace Cert.KernelIdeal.Moments

open Cert.KernelIdeal Cert.KernelIdeal.Gen Cert.KernelIdeal.RowSums Cert.RowStats

variable (P Q : S4096x8192.Idx → ℝ)

/-- A table of reals read in the extended reals. -/
abbrev lift (P : S4096x8192.Idx → ℝ) : Vec Ideal S4096x8192 .f32 := fun i => (P i : EReal)

/-- The entrywise product of two such tables. -/
abbrev liftMul (P Q : S4096x8192.Idx → ℝ) : Vec Ideal S4096x8192 .f32 :=
  mulf (F := Ideal) (s := S4096x8192) (φ := .f32) (lift P) (lift Q)

/-- A sum over the indices of a one-axis shape is the sum over the coordinate. -/
theorem sum_idx1 {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ f (fun a => f (ix1 a))
    (fun i => congrArg f (eq_ix1 i))

/-- A column read as a row: entry `r` is the column's entry in row `r`. -/
theorem colAsRow_apply (x : Vec Ideal S4096x1 .f32) (r : Fin 4096) : colAsRow x (ix1 r) = x (ix2 r (0 : Fin 1)) := by
  unfold colAsRow
  refine shapeCast_apply x shapeCasts_S4096x1_S4096 (ix1 r) (ix2 r (0 : Fin 1)) ?_
  rw [Shape.rowMajor_val_one, Shape.rowMajor_val_two]
  show r.val * 1 + 0 = r.val
  omega

/-- The row length at any row is the real `8192`. -/
theorem rowLen_apply (r : Fin 4096) : rowLen (ix1 r) = ((8192 : ℝ) : EReal) := by
  unfold rowLen
  rw [broadcastInDim_apply _ bcast_S_S4096 _ (ix1 r) ix0 (fun a => a.elim0)]
  exact ofBits_8192

/-- A table's row sum, read in row `r`. -/
theorem sum1 (r : Fin 4096) : colAsRow (sumRows (lift P)) (ix1 r) = ((∑ k : Fin 8192, P (ix2 r k) : ℝ) : EReal) := by
  rw [colAsRow_apply, coe_sum]
  rfl

/-- The row sum of two tables' products, read in row `r`. -/
theorem sum2 (r : Fin 4096) :
    colAsRow (sumRows (liftMul P Q)) (ix1 r) = ((∑ k : Fin 8192, P (ix2 r k) * Q (ix2 r k) : ℝ) : EReal) := by
  rw [colAsRow_apply, coe_sum]
  simp only [EReal.coe_mul]
  rfl

/-- THE ONE-PASS CENTRED SUM at real entries: `Σ PQ - ΣP·ΣQ·(1/8192)`. -/
theorem oneDev_apply (r : Fin 4096) :
    oneDev (sumRows (lift P)) (sumRows (lift Q)) (sumRows (liftMul P Q)) (ix1 r)
      = ((∑ k : Fin 8192, P (ix2 r k) * Q (ix2 r k)
          - (∑ k : Fin 8192, P (ix2 r k)) * (∑ k : Fin 8192, Q (ix2 r k)) * (1 / 8192) : ℝ) : EReal) := by
  show colAsRow (sumRows (liftMul P Q)) (ix1 r)
      - Ideal.div (colAsRow (sumRows (lift P)) (ix1 r) * colAsRow (sumRows (lift Q)) (ix1 r)) (rowLen (ix1 r)) = _
  rw [sum2, sum1, sum1, rowLen_apply, Ideal.div_coe (by norm_num : (8192 : ℝ) ≠ 0)]
  simp only [← EReal.coe_mul, ← EReal.coe_sub]

/-- The host's sum of a row of 4096 entries from zero is the sum over the rows. -/
theorem total_apply (y : FVec Ideal S4096 .f32) (j : S_.Idx) :
    Host.reduceAdd y (constant (F := Ideal) S_ .f32 0x00000000#32) reducesTo_S4096_S_d0 h_S_ j = ∑ r : Fin 4096, y (ix1 r) := by
  simp only [Host.reduceAdd, Ideal.hostReduceAdd_def]
  rw [Ideal.hostReduceAdd_total reducesTo_S4096_S_d0 (fun b => b.elim0), sum_idx1]
  simp only [constant_apply, Ideal.ofBits_zero_f32, zero_add]

/-- The rows' sums of products added over the rows, at real entries. -/
theorem total_sum2 (j : S_.Idx) :
    Host.reduceAdd (colAsRow (sumRows (liftMul P Q))) (constant (F := Ideal) S_ .f32 0x00000000#32) reducesTo_S4096_S_d0 h_S_ j
      = ((∑ r : Fin 4096, ∑ k : Fin 8192, P (ix2 r k) * Q (ix2 r k) : ℝ) : EReal) := by
  rw [total_apply, coe_sum]
  exact Finset.sum_congr rfl fun r _ => sum2 P Q r

/-- THE SQUARED ERROR FROM THE MOMENTS at real entries: `ΣΣ P² - 2 ΣΣ PQ + ΣΣ Q²`. -/
theorem sseOf_apply (j : S_.Idx) :
    sseOf (sumRows (liftMul P P)) (sumRows (liftMul Q Q)) (sumRows (liftMul P Q)) j
      = ((∑ r : Fin 4096, ∑ k : Fin 8192, P (ix2 r k) * P (ix2 r k)
          - 2 * ∑ r : Fin 4096, ∑ k : Fin 8192, P (ix2 r k) * Q (ix2 r k)
          + ∑ r : Fin 4096, ∑ k : Fin 8192, Q (ix2 r k) * Q (ix2 r k) : ℝ) : EReal) := by
  unfold sseOf
  rw [addf_apply, subf_apply, mulf_apply, constant_apply, total_sum2, total_sum2, total_sum2, ofBits_two,
    ← EReal.coe_mul, ← EReal.coe_sub, ← EReal.coe_add]

end Cert.KernelIdeal.Moments

end
-- ==== Proof.RefCentred.lean ====
/-
  The reference's three centred row sums and its squared error, read at an index, for arguments whose entries are reals.
  The reference subtracts each row's mean from the row, multiplies and adds along the row; here each of those stages is
  read entry by entry as the extended real of one real expression of the arguments' real entries.
-/
import proofs.«136035_j5050881540163_1_alg».proof.Proof.Gen.ReferenceIdeal.Read
import proofs.«136035_j5050881540163_1_alg».proof.Proof.RowStats
import Idealize.ShloMosaic.Lib.ValueIdx

noncomputable section

open scoped BigOperators
open Idealize.ShloMosaic Idealize.ShloMosaic.ValueIdx

namespace Cert.ReferenceIdeal.Centred

open Cert.ReferenceIdeal Cert.ReferenceIdeal.Read Cert.RowStats

variable (P Q : S4096x8192.Idx → ℝ)

/-- A table of reals read in the extended reals. -/
abbrev lift (P : S4096x8192.Idx → ℝ) : (⟨S4096x8192, .f32⟩ : BufTy).Contents (Elt Ideal) := fun i => (P i : EReal)

/-- The mean of row `r` of a table of reals. -/
abbrev rowMean (P : S4096x8192.Idx → ℝ) (r : Fin 4096) : ℝ := (∑ k : Fin 8192, P (ix2 r k)) * (1 / 8192)

theorem idx4 (r : Fin 4096) (k : Fin 8192) : idx_main_v4 (ix1 r) k = ix2 r k :=
  funext fun a => Fin.ext (by match a with | ⟨0, _⟩ => rfl | ⟨1, _⟩ => rfl)
theorem idx10 (r : Fin 4096) (k : Fin 8192) : idx_main_v10 (ix1 r) k = ix2 r k :=
  funext fun a => Fin.ext (by match a with | ⟨0, _⟩ => rfl | ⟨1, _⟩ => rfl)
theorem idx17 (r : Fin 4096) (k : Fin 8192) : idx_main_v17 (ix1 r) k = ix2 r k :=
  funext fun a => Fin.ext (by match a with | ⟨0, _⟩ => rfl | ⟨1, _⟩ => rfl)
theorem idx19 (r : Fin 4096) (k : Fin 8192) : idx_main_v19 (ix1 r) k = ix2 r k :=
  funext fun a => Fin.ext (by match a with | ⟨0, _⟩ => rfl | ⟨1, _⟩ => rfl)
theorem idx21 (r : Fin 4096) (k : Fin 8192) : idx_main_v21 (ix1 r) k = ix2 r k :=
  funext fun a => Fin.ext (by match a with | ⟨0, _⟩ => rfl | ⟨1, _⟩ => rfl)

theorem idx58 (r : Fin 4096) (k : Fin 8192) : idx_main_v5 (idx_main_v8 (ix2 r k)) = ix1 r :=
  funext fun a => Fin.ext (by match a with | ⟨0, _⟩ => rfl)
theorem idx1114 (r : Fin 4096) (k : Fin 8192) : idx_main_v11 (idx_main_v14 (ix2 r k)) = ix1 r :=
  funext fun a => Fin.ext (by match a with | ⟨0, _⟩ => rfl)

/-- The first argument's row sums. -/
theorem rowSum_p (r : Fin 4096) :
    val_main_v4 (F := Ideal) (lift P) (ix1 r) = ((∑ k : Fin 8192, P (ix2 r k) : ℝ) : EReal) := by
  rw [val_main_v4_apply]
  simp only [val_main_cst_1_apply, Ideal.ofBits_def, Ideal.ofBits_zero_f32, zero_add, idx4, coe_sum]

/-- The second argument's row sums. -/
theorem rowSum_q (r : Fin 4096) :
    val_main_v10 (F := Ideal) (lift Q) (ix1 r) = ((∑ k : Fin 8192, Q (ix2 r k) : ℝ) : EReal) := by
  rw [val_main_v10_apply]
  simp only [val_main_cst_3_apply, Ideal.ofBits_def, Ideal.ofBits_zero_f32, zero_add, idx10, coe_sum]

/-- An entry of the first argument less its row's mean. -/
theorem centred_p (r : Fin 4096) (k : Fin 8192) :
    val_main_v9 (F := Ideal) (lift P) (ix2 r k) = ((P (ix2 r k) - rowMean P r : ℝ) : EReal) := by
  rw [val_main_v9_apply, val_main_v8_apply, val_main_v7_apply, val_main_v5_apply, val_main_v6_apply, idx58, rowSum_p]
  simp only [val_main_cst_2_apply, Ideal.subf_def, Ideal.hostDivf_def, Ideal.ofBits_def, ofBits_8192,
    Ideal.div_coe (by norm_num : (8192 : ℝ) ≠ 0), ← EReal.coe_mul, ← EReal.coe_sub]

/-- An entry of the second argument less its row's mean. -/
theorem centred_q (r : Fin 4096) (k : Fin 8192) :
    val_main_v15 (F := Ideal) (lift Q) (ix2 r k) = ((Q (ix2 r k) - rowMean Q r : ℝ) : EReal) := by
  rw [val_main_v15_apply, val_main_v14_apply, val_main_v13_apply, val_main_v11_apply, val_main_v12_apply, idx1114, rowSum_q]
  simp only [val_main_cst_4_apply, Ideal.subf_def, Ideal.hostDivf_def, Ideal.ofBits_def, ofBits_8192,
    Ideal.div_coe (by norm_num : (8192 : ℝ) ≠ 0), ← EReal.coe_mul, ← EReal.coe_sub]

/-- The first table's centred squares added along each row. -/
theorem sq_p (r : Fin 4096) :
    val_main_v19 (F := Ideal) (lift P) (ix1 r)
      = ((∑ k : Fin 8192, (P (ix2 r k) - rowMean P r) * (P (ix2 r k) - rowMean P r) : ℝ) : EReal) := by
  rw [val_main_v19_apply]
  simp only [val_main_cst_6_apply, val_main_v18_apply, Ideal.ofBits_def, Ideal.ofBits_zero_f32, zero_add, idx19, centred_p,
    Ideal.mulf_def, ← EReal.coe_mul, coe_sum]

/-- The second table's centred squares added along each row. -/
theorem sq_q (r : Fin 4096) :
    val_main_v21 (F := Ideal) (lift Q) (ix1 r)
      = ((∑ k : Fin 8192, (Q (ix2 r k) - rowMean Q r) * (Q (ix2 r k) - rowMean Q r) : ℝ) : EReal) := by
  rw [val_main_v21_apply]
  simp only [val_main_cst_7_apply, val_main_v20_apply, Ideal.ofBits_def, Ideal.ofBits_zero_f32, zero_add, idx21, centred_q,
    Ideal.mulf_def, ← EReal.coe_mul, coe_sum]

/-- The two tables' centred products added along each row. -/
theorem prod_pq (r : Fin 4096) :
    val_main_v17 (F := Ideal) (lift P) (lift Q) (ix1 r)
      = ((∑ k : Fin 8192, (P (ix2 r k) - rowMean P r) * (Q (ix2 r k) - rowMean Q r) : ℝ) : EReal) := by
  rw [val_main_v17_apply]
  simp only [val_main_cst_5_apply, val_main_v16_apply, Ideal.ofBits_def, Ideal.ofBits_zero_f32, zero_add, idx17, centred_p, centred_q,
    Ideal.mulf_def, ← EReal.coe_mul, coe_sum]

/-- The squared error: every entry's squared difference, added up. -/
theorem sse_pq (j : S_.Idx) :
    val_main_v2 (F := Ideal) (lift P) (lift Q) j
      = ((∑ r : Fin 4096, ∑ k : Fin 8192, (P (ix2 r k) - Q (ix2 r k)) * (P (ix2 r k) - Q (ix2 r k)) : ℝ) : EReal) := by
  rw [val_main_v2_apply]
  simp only [val_main_cst_apply, val_main_v1_apply, val_main_v0_apply, Ideal.ofBits_def, Ideal.ofBits_zero_f32, zero_add,
    Ideal.mulf_def, Ideal.subf_def, ← EReal.coe_sub, ← EReal.coe_mul]
  rw [sum_idx2]
  simp only [coe_sum]

end Cert.ReferenceIdeal.Centred

end
-- ==== Proof.Bridge.lean ====
/-
  The bridge. At real entries the kernel's one-pass centred sums are the reference's two-pass ones (the covariance
  identity over a row of 8192 entries, used three times: squares of each table, and the products), and the kernel's
  squared error from the moments is the reference's entry-by-entry one; both programs then apply the same last stretch,
  so their results are one extended real.
-/
import proofs.«136035_j5050881540163_1_alg».proof.Proof.KernelMoments
import proofs.«136035_j5050881540163_1_alg».proof.Proof.RefCentred

noncomputable section

open scoped BigOperators
open Idealize.ShloMosaic Idealize.ShloMosaic.ValueIdx

namespace Cert.Bridge

open Cert.RowStats Cert.KernelIdeal.RowSums Cert.KernelIdeal.Moments

abbrev Tbl : Shape := ⟨2, ![4096, 8192]⟩

variable (P Q : Tbl.Idx → ℝ)

theorem card_row : (Fintype.card (Fin 8192) : ℝ) = 8192 := by simp

/-- One pass or two, a row's centred sum of products is one real. -/
theorem dev_eq (r : Fin 4096) :
    (∑ k : Fin 8192, P (ix2 r k) * Q (ix2 r k) - (∑ k : Fin 8192, P (ix2 r k)) * (∑ k : Fin 8192, Q (ix2 r k)) * (1 / 8192) : ℝ)
      = ∑ k : Fin 8192, (P (ix2 r k) - Cert.ReferenceIdeal.Centred.rowMean P r) * (Q (ix2 r k) - Cert.ReferenceIdeal.Centred.rowMean Q r) :=
  (sum_centred_mul (fun k : Fin 8192 => P (ix2 r k)) (fun k : Fin 8192 => Q (ix2 r k)) 8192 card_row (by norm_num)).symm

theorem devA : oneDev (sumRows (lift P)) (sumRows (lift P)) (sumRows (liftMul P P))
    = Cert.ReferenceIdeal.Read.val_main_v19 (F := Ideal) (Cert.ReferenceIdeal.Centred.lift P) := by
  funext j
  obtain ⟨r, rfl⟩ : ∃ r : Fin 4096, j = ix1 r := ⟨j 0, eq_ix1 j⟩
  rw [oneDev_apply P P r, Cert.ReferenceIdeal.Centred.sq_p P r, dev_eq P P r]

theorem devN : oneDev (sumRows (lift P)) (sumRows (lift Q)) (sumRows (liftMul P Q))
    = Cert.ReferenceIdeal.Read.val_main_v17 (F := Ideal) (Cert.ReferenceIdeal.Centred.lift P) (Cert.ReferenceIdeal.Centred.lift Q) := by
  funext j
  obtain ⟨r, rfl⟩ : ∃ r : Fin 4096, j = ix1 r := ⟨j 0, eq_ix1 j⟩
  rw [oneDev_apply P Q r, Cert.ReferenceIdeal.Centred.prod_pq P Q r, dev_eq P Q r]

theorem sse_eq : sseOf (sumRows (liftMul P P)) (sumRows (liftMul Q Q)) (sumRows (liftMul P Q))
    = Cert.ReferenceIdeal.Read.val_main_v2 (F := Ideal) (Cert.ReferenceIdeal.Centred.lift P) (Cert.ReferenceIdeal.Centred.lift Q) := by
  funext j
  rw [sseOf_apply P Q j, Cert.ReferenceIdeal.Centred.sse_pq P Q j]
  exact congrArg (fun x : ℝ => (x : EReal)) (sum_sq_sub (fun (r : Fin 4096) (k : Fin 8192) => P (ix2 r k)) (fun r k => Q (ix2 r k))).symm

/-- THE TWO RESULTS ARE ONE: the kernel's lines after the call, fed the five columns of real tables, give what the
    reference's last stage gives of the same tables. -/
theorem result_agree :
    tailOf (sumRows (lift P)) (sumRows (lift Q)) (sumRows (liftMul P P)) (sumRows (liftMul Q Q)) (sumRows (liftMul P Q))
      = Cert.ReferenceIdeal.Read.val_main_v28 (F := Ideal) (Cert.ReferenceIdeal.Centred.lift P) (Cert.ReferenceIdeal.Centred.lift Q) := by
  unfold tailOf
  rw [devA P, devA Q, devN P Q, sse_eq P Q]
  rfl

end Cert.Bridge

end
-- ==== Proof.Finite.lean ====
/-
  The precondition read back: when `finite_inputs` holds of two tables, every entry of both is a real number. The
  predicate says `|x| < +∞` of every entry; an extended real whose absolute value is below `+∞` is neither infinity.
-/
import proofs.«136035_j5050881540163_1_alg».proof.Pre_finite_inputs
import Idealize.ShloMosaic.Lib.ReduceAll
import Idealize.ShloMosaic.Lib.ValueIdx
import Idealize.ShloMosaic.Lib.Pipeline.Value
import Idealize.ShloMosaic.PureOps.Ideal

noncomputable section

open Idealize.ShloMosaic

namespace Cert.Pre_finite_inputs.Finite

open Cert.Pre_finite_inputs

instance : Subsingleton S_.Idx := ⟨fun a b => funext fun d => d.elim0⟩

/-- An extended real whose absolute value compares below the pattern of `+∞` is a real. -/
theorem real_of_abs_lt (x : EReal) (h : Ideal.cmp .olt (max x (-x)) (Ideal.ofBits .f32 0x7F800000#32) = 1#1) :
    ∃ r : ℝ, x = r := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- `finite_inputs` of two tables gives real entries throughout both. -/
theorem real_of_pre [Facts] (a b : FVec Ideal S4096x8192 .f32) (h : fn (F := Ideal) a b = fun _ => 1#1) :
    (∀ i, ∃ r : ℝ, a i = r) ∧ (∀ i, ∃ r : ℝ, b i = r) := by
  have h0 := congrFun h ValueIdx.ix0
  dsimp only [fn] at h0
  obtain ⟨ha, hb⟩ := IntOp.andi_eq_one.1 h0
  refine ⟨fun i => real_of_abs_lt _ ?_, fun i => real_of_abs_lt _ ?_⟩
  · have e := Host.reduce_andi_all _ _ _ _ _ ha i
    rw [ValueIdx.cmpf_apply, broadcastInDim_apply _ Facts.bcast_S_S4096x8192 _ i ValueIdx.ix0 (fun a => a.elim0)] at e
    exact e
  · have e := Host.reduce_andi_all _ _ _ _ _ hb i
    rw [ValueIdx.cmpf_apply, broadcastInDim_apply _ Facts.bcast_S_S4096x8192 _ i ValueIdx.ix0 (fun a => a.elim0)] at e
    exact e

end Cert.Pre_finite_inputs.Finite

end
-- ==== Proof.lean ====
/-
  A mean squared error over a mean absolute row correlation, computed two ways.

  The kernel makes ONE pass over the two 4096 × 8192 tables `p`, `t`: a grid of 32 points, each taking 128 whole rows of
  both tables and leaving, for each of its rows, the five sums `Σp`, `Σt`, `Σp²`, `Σt²`, `Σpt` along the row. The lines after
  the call form, per row, `Σp² - (Σp)²/8192`, `Σt² - (Σt)²/8192`, `Σpt - Σp·Σt/8192`, the correlation as the third over the
  root of the product of the first two, the mean of its absolute value over the rows, and the squared error as
  `ΣΣp² - 2ΣΣpt + ΣΣt²` over `2^25`; the result is their quotient.
  The reference subtracts each row's mean from the row first, then multiplies and adds, and takes the squared error entry
  by entry; its last stretch (root, quotient, absolute value, mean, the two final quotients) is the kernel's, operation
  for operation.

  Over the extended reals the two agree where every entry is a real number, which the precondition says: then every sum
  is a real sum, the centred sums agree by `Σ (pⱼ - Σp/n)(tⱼ - Σt/n) = Σ pⱼtⱼ - Σp·Σt/n` with `n = 8192` the row's length
  (used for `(p, p)`, `(t, t)`, `(p, t)`), and the squared errors by expanding the square. The shared last stretch is never
  opened: it is one function applied to equal arguments (a zero variance, where the quotient is a corner of the extended
  reals, gives the same corner on both sides).

  The three frames: the two kernel programs' are the generated class-A frames; the reference's is its generated run with
  the result dropped. `preserves` is `True`: the ideal pass rewrote nothing.
-/
import proofs.«136035_j5050881540163_1_alg».proof.Defs
import proofs.«136035_j5050881540163_1_alg».proof.Proof.Gen.Kernel
import proofs.«136035_j5050881540163_1_alg».proof.Proof.Gen.Kernel.Skeleton
import proofs.«136035_j5050881540163_1_alg».proof.Proof.Gen.Kernel.Launch
import proofs.«136035_j5050881540163_1_alg».proof.Proof.Gen.Kernel.Points
import proofs.«136035_j5050881540163_1_alg».proof.Proof.Gen.Kernel.Frame
import proofs.«136035_j5050881540163_1_alg».proof.Proof.Gen.KernelIdeal
import proofs.«136035_j5050881540163_1_alg».proof.Proof.Gen.KernelIdeal.Skeleton
import proofs.«136035_j5050881540163_1_alg».proof.Proof.Gen.KernelIdeal.Launch
import proofs.«136035_j5050881540163_1_alg».proof.Proof.Gen.KernelIdeal.Points
import proofs.«136035_j5050881540163_1_alg».proof.Proof.Gen.KernelIdeal.Frame
import proofs.«136035_j5050881540163_1_alg».proof.Proof.Gen.ReferenceIdeal
import proofs.«136035_j5050881540163_1_alg».proof.Proof.Gen.Pre_finite_inputs
import proofs.«136035_j5050881540163_1_alg».proof.Proof.Gen.ReferenceIdeal.Run
import proofs.«136035_j5050881540163_1_alg».proof.Proof.Gen.ReferenceIdeal.Read
import proofs.«136035_j5050881540163_1_alg».proof.Proof.Bridge
import proofs.«136035_j5050881540163_1_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs run, the kernel's result buffer ending at the lines after the call of the five row-sum
    columns, the reference's at its last stage; the arguments agree and, by the precondition, hold reals, where the two
    are one extended real. -/
theorem algebraic : Cert.algebraic_KernelIdeal_ReferenceIdeal := by
  intro m ρ m' ρ' hpre hagree
  refine ⟨fun c => Cert.KernelIdeal.RowSums.result m c, Cert.KernelIdeal.RowSums.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v28_eq]
  obtain ⟨hp, hq⟩ := Cert.Pre_finite_inputs.Finite.real_of_pre _ _ (hpre c)
  choose P hP using hp
  choose Q hQ using hq
  have ep : m ((c.tc : Thread Cert.KernelIdeal.nD Cert.KernelIdeal.τ).loc Cert.KernelIdeal.main_arg0)
      = Cert.ReferenceIdeal.Centred.lift P := funext hP
  have eq : m ((c.tc : Thread Cert.KernelIdeal.nD Cert.KernelIdeal.τ).loc Cert.KernelIdeal.main_arg1)
      = Cert.ReferenceIdeal.Centred.lift Q := funext hQ
  show (_ : FVec Ideal Cert.KernelIdeal.S_ .f32) = Cert.KernelIdeal.RowSums.result m c
  unfold Cert.KernelIdeal.RowSums.result
  rw [Cert.KernelIdeal.Gen.V_main_arg0, Cert.KernelIdeal.Gen.V_main_arg1, ep, eq]
  exact (Cert.Bridge.result_agree P Q).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
